-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x256 .f32) (main_arg3 : FVec F S256 .f32) (main_arg4 : FVec F S256x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S690000x1 : Shape := ⟨2, ![690000, 1]⟩
abbrev S690000x256 : Shape := ⟨2, ![690000, 256]⟩
abbrev S1x256 : Shape := ⟨2, ![1, 256]⟩
abbrev S690000x128 : Shape := ⟨2, ![690000, 128]⟩
abbrev S1x128 : Shape := ⟨2, ![1, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 129
  | .vmem => 16
  | .smem => 0
  | _ => 0

abbrev hbmTy0_0 (i : Nat) : BufTy := match i % 128 with
  | 0 => ⟨S50000x128, .f32⟩
  | 1 => ⟨S2x640000, .i32⟩
  | 2 => ⟨S128x256, .f32⟩
  | 3 => ⟨S256, .f32⟩
  | 4 => ⟨S256x128, .f32⟩
  | 5 => ⟨S128, .f32⟩
  | 6 => ⟨S128x40, .f32⟩
  | 7 => ⟨S40, .f32⟩
  | 8 => ⟨S50000, .i32⟩
  | 9 => ⟨S1x640000, .i32⟩
  | 10 => ⟨S640000, .i32⟩
  | 11 => ⟨S690000, .i32⟩
  | 12 => ⟨S1x640000, .i32⟩
  | 13 => ⟨S640000, .i32⟩
  | 14 => ⟨S690000, .i32⟩
  | 15 => ⟨S50000x256, .f32⟩
  | 16 => ⟨S_, .f32⟩
  | 17 => ⟨S690000, .f32⟩
  | 18 => ⟨S_, .f32⟩
  | 19 => ⟨S50000, .f32⟩
  | 20 => ⟨S690000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S690000, .i32⟩
  | 32 => ⟨S690000, .i1⟩
  | 33 => ⟨S_, .i32⟩
  | 34 => ⟨S690000, .i32⟩
  | 35 => ⟨S690000, .i32⟩
  | 36 => ⟨S690000, .i32⟩
  | 37 => ⟨S690000x1, .i32⟩
  | 38 => ⟨S690000, .f32⟩
  | 39 => ⟨S_, .i32⟩
  | 40 => ⟨S690000, .i32⟩
  | 41 => ⟨S690000, .i1⟩
  | 42 => ⟨S_, .i32⟩
  | 43 => ⟨S690000, .i32⟩
  | 44 => ⟨S690000, .i32⟩
  | 45 => ⟨S690000, .i32⟩
  | 46 => ⟨S690000x1, .i32⟩
  | 47 => ⟨S690000, .f32⟩
  | 48 => ⟨S690000, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x256, .f32⟩
  | 58 => ⟨S690000x1, .f32⟩
  | 59 => ⟨S690000x256, .f32⟩
  | 60 => ⟨S690000x256, .f32⟩
  | 61 => ⟨S_, .f32⟩
  | 62 => ⟨S50000x256, .f32⟩
  | 63 => ⟨S690000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x128, .f32⟩
  | 72 => ⟨S_, .f32⟩
  | 73 => ⟨S690000, .f32⟩
  | 74 => ⟨S_, .f32⟩
  | 75 => ⟨S50000, .f32⟩
  | 76 => ⟨S690000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S690000, .i32⟩
  | 88 => ⟨S690000, .i1⟩
  | 89 => ⟨S_, .i32⟩
  | 90 => ⟨S690000, .i32⟩
  | 91 => ⟨S690000, .i32⟩
  | 92 => ⟨S690000, .i32⟩
  | 93 => ⟨S690000x1, .i32⟩
  | 94 => ⟨S690000, .f32⟩
  | 95 => ⟨S_, .i32⟩
  | 96 => ⟨S690000, .i32⟩
  | 97 => ⟨S690000, .i1⟩
  | 98 => ⟨S_, .i32⟩
  | 99 => ⟨S690000, .i32⟩
  | 100 => ⟨S690000, .i32⟩
  | 101 => ⟨S690000, .i32⟩
  | 102 => ⟨S690000x1, .i32⟩
  | 103 => ⟨S690000, .f32⟩
  | 104 => ⟨S690000, .f32⟩
  | 105 => ⟨S_, .i32⟩
  | 106 => ⟨S690000, .i32⟩
  | 107 => ⟨S690000, .i1⟩
  | 108 => ⟨S_, .i32⟩
  | 109 => ⟨S690000, .i32⟩
  | 110 => ⟨S690000, .i32⟩
  | 111 => ⟨S690000, .i32⟩
  | 112 => ⟨S690000x1, .i32⟩
  | 113 => ⟨S690000x128, .f32⟩
  | 114 => ⟨S690000x1, .f32⟩
  | 115 => ⟨S690000x128, .f32⟩
  | 116 => ⟨S690000x128, .f32⟩
  | 117 => ⟨S_, .f32⟩
  | 118 => ⟨S50000x128, .f32⟩
  | 119 => ⟨S690000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1x40, .f32⟩
  | _ => ⟨S50000x128, .f32⟩

abbrev hbmTy0_1 (i : Nat) : BufTy := match i % 128 with
  | 0 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x256_0_1 : S690000x1.BroadcastsInDim S690000x256 (![0, 1] : Fin 2 → Fin S690000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S40_S1x40 : S40.ShapeCasts S1x40
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x128_S128x256_S5000x256_1_0_0_1_n_n_wf : DotDims.WF S5000x128 S128x256 S5000x256 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x256_S690000x1_S690000x256_1_0_n_n_0_1_1256_wf : GatherDims.WF S50000x256 S690000x1 S690000x256 [1] [0] [] [0] [] 1 ![1, 256]
  scatter_S50000x256_S690000x1_S690000x256_1_0_0_1_wf : ScatterDims.WF S50000x256 S690000x1 S690000x256 [1] [0] [0] 1
  dot_S5000x256_S256x128_S5000x128_1_0_0_1_n_n_wf : DotDims.WF S5000x256 S256x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x256_S690000x1_S690000x256_1_0_n_n_0_1_1256 : GatherDims S50000x256 S690000x1 S690000x256 where
  offsetDims := [1]
  collapsedSliceDims := [0]
  operandBatchingDims := []
  startIndicesBatchingDims := []
  startIndexMap := [0]
  indexVectorDim := 1
  sliceSizes := ![1, 256]
  wf := gather_S50000x256_S690000x1_S690000x256_1_0_n_n_0_1_1256_wf
def scatter_S50000x256_S690000x1_S690000x256_1_0_0_1 : ScatterDims S50000x256 S690000x1 S690000x256 where
  updateWindowDims := [1]
  insertedWindowDims := [0]
  scatterDimsToOperandDims := [0]
  indexVectorDim := 1
  wf := scatter_S50000x256_S690000x1_S690000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v88) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x256 : Shape := ⟨2, ![50000, 256]⟩
abbrev S690000x256 : Shape := ⟨2, ![690000, 256]⟩
abbrev S1x256 : Shape := ⟨2, ![1, 256]⟩
abbrev S690000x128 : Shape := ⟨2, ![690000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x640000, .i32⟩
  | 2 => ⟨S128x256, .f32⟩
  | 3 => ⟨S256, .f32⟩
  | 4 => ⟨S256x128, .f32⟩
  | 5 => ⟨S128, .f32⟩
  | 6 => ⟨S128x40, .f32⟩
  | 7 => ⟨S40, .f32⟩
  | 8 => ⟨S50000, .i32⟩
  | 9 => ⟨S1x640000, .i32⟩
  | 10 => ⟨S640000, .i32⟩
  | 11 => ⟨S690000, .i32⟩
  | 12 => ⟨S1x640000, .i32⟩
  | 13 => ⟨S640000, .i32⟩
  | 14 => ⟨S690000, .i32⟩
  | 15 => ⟨S_, .f32⟩
  | 16 => ⟨S690000, .f32⟩
  | 17 => ⟨S_, .f32⟩
  | 18 => ⟨S50000, .f32⟩
  | 19 => ⟨S690000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S690000, .i32⟩
  | 31 => ⟨S690000, .i1⟩
  | 32 => ⟨S_, .i32⟩
  | 33 => ⟨S690000, .i32⟩
  | 34 => ⟨S690000, .i32⟩
  | 35 => ⟨S690000, .i32⟩
  | 36 => ⟨S690000x1, .i32⟩
  | 37 => ⟨S690000, .f32⟩
  | 38 => ⟨S_, .i32⟩
  | 39 => ⟨S690000, .i32⟩
  | 40 => ⟨S690000, .i1⟩
  | 41 => ⟨S_, .i32⟩
  | 42 => ⟨S690000, .i32⟩
  | 43 => ⟨S690000, .i32⟩
  | 44 => ⟨S690000, .i32⟩
  | 45 => ⟨S690000x1, .i32⟩
  | 46 => ⟨S690000, .f32⟩
  | 47 => ⟨S690000, .f32⟩
  | 48 => ⟨S50000x256, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x256, .f32⟩
  | 58 => ⟨S690000x1, .f32⟩
  | 59 => ⟨S690000x256, .f32⟩
  | 60 => ⟨S690000x256, .f32⟩
  | 61 => ⟨S_, .f32⟩
  | 62 => ⟨S50000x256, .f32⟩
  | 63 => ⟨S690000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S_, .f32⟩
  | 72 => ⟨S690000, .f32⟩
  | 73 => ⟨S_, .f32⟩
  | 74 => ⟨S50000, .f32⟩
  | 75 => ⟨S690000x1, .i32⟩
  | 76 => ⟨S50000, .f32⟩
  | 77 => ⟨S_, .f32⟩
  | 78 => ⟨S50000, .f32⟩
  | 79 => ⟨S50000, .i1⟩
  | 80 => ⟨S50000, .f32⟩
  | 81 => ⟨S_, .f32⟩
  | 82 => ⟨S_, .f32⟩
  | 83 => ⟨S50000, .f32⟩
  | 84 => ⟨S50000, .f32⟩
  | 85 => ⟨S_, .i32⟩
  | 86 => ⟨S690000, .i32⟩
  | 87 => ⟨S690000, .i1⟩
  | 88 => ⟨S_, .i32⟩
  | 89 => ⟨S690000, .i32⟩
  | 90 => ⟨S690000, .i32⟩
  | 91 => ⟨S690000, .i32⟩
  | 92 => ⟨S690000x1, .i32⟩
  | 93 => ⟨S690000, .f32⟩
  | 94 => ⟨S_, .i32⟩
  | 95 => ⟨S690000, .i32⟩
  | 96 => ⟨S690000, .i1⟩
  | 97 => ⟨S_, .i32⟩
  | 98 => ⟨S690000, .i32⟩
  | 99 => ⟨S690000, .i32⟩
  | 100 => ⟨S690000, .i32⟩
  | 101 => ⟨S690000x1, .i32⟩
  | 102 => ⟨S690000, .f32⟩
  | 103 => ⟨S690000, .f32⟩
  | 104 => ⟨S50000x128, .f32⟩
  | 105 => ⟨S_, .i32⟩
  | 106 => ⟨S690000, .i32⟩
  | 107 => ⟨S690000, .i1⟩
  | 108 => ⟨S_, .i32⟩
  | 109 => ⟨S690000, .i32⟩
  | 110 => ⟨S690000, .i32⟩
  | 111 => ⟨S690000, .i32⟩
  | 112 => ⟨S690000x1, .i32⟩
  | 113 => ⟨S690000x128, .f32⟩
  | 114 => ⟨S690000x1, .f32⟩
  | 115 => ⟨S690000x128, .f32⟩
  | 116 => ⟨S690000x128, .f32⟩
  | 117 => ⟨S_, .f32⟩
  | 118 => ⟨S50000x128, .f32⟩
  | 119 => ⟨S690000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x40, .f32⟩
  | _ => ⟨S50000x128, .f32⟩

abbrev hbmTy0_1 (i : Nat) : BufTy := match i % 128 with
  | 0 => ⟨S1x40, .f32⟩
  | 1 => ⟨S50000x40, .f32⟩
  | 2 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v55 : Ref sig .tc := ⟨.hbm, 84, rfl⟩
abbrev main_c_13 : Ref sig .tc := ⟨.hbm, 85, rfl⟩
abbrev main_v56 : Ref sig .tc := ⟨.hbm, 86, rfl⟩
abbrev main_v57 : Ref sig .tc := ⟨.hbm, 87, rfl⟩
abbrev main_c_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x256_0_1 : S690000x1.BroadcastsInDim S690000x256 (![0, 1] : Fin 2 → Fin S690000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x256_S50000x256_1_0_0_1_n_n_wf : DotDims.WF S50000x128 S128x256 S50000x256 [1] [0] [0] [1] [] []
  gather_S50000x256_S690000x1_S690000x256_1_0_n_n_0_1_1256_wf : GatherDims.WF S50000x256 S690000x1 S690000x256 [1] [0] [] [0] [] 1 ![1, 256]
  scatter_S50000x256_S690000x1_S690000x256_1_0_0_1_wf : ScatterDims.WF S50000x256 S690000x1 S690000x256 [1] [0] [0] 1
  dot_S50000x256_S256x128_S50000x128_1_0_0_1_n_n_wf : DotDims.WF S50000x256 S256x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x40_S50000x40_1_0_0_1_n_n_wf : DotDims.WF S50000x128 S128x40 S50000x40 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S690000x1_S690000x256_1_0_n_n_0_1_1256 : GatherDims S50000x256 S690000x1 S690000x256 where
  offsetDims := [1]
  collapsedSliceDims := [0]
  operandBatchingDims := []
  startIndicesBatchingDims := []
  startIndexMap := [0]
  indexVectorDim := 1
  sliceSizes := ![1, 256]
  wf := gather_S50000x256_S690000x1_S690000x256_1_0_n_n_0_1_1256_wf
def scatter_S50000x256_S690000x1_S690000x256_1_0_0_1 : ScatterDims S50000x256 S690000x1 S690000x256 where
  updateWindowDims := [1]
  insertedWindowDims := [0]
  scatterDimsToOperandDims := [0]
  indexVectorDim := 1
  wf := scatter_S50000x256_S690000x1_S690000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.LibMatProd.lean ====
/-
  The plain product of two matrices of extended reals, and the two operations that compute it.

  For an [R, K] array `A` and a [K, C] array `B`, `mm A B` at (p, q) is the sum over k < K of A(p, k) * B(k, q).
  A contraction with no batch axis that contracts the left operand's axis 1 against the right operand's axis 0 is
  this function of its operands: the host's contraction (no accumulator) and the matrix unit's into a zero
  accumulator alike, whatever the operands' float formats, since at the ideal instance a value of every format is
  an extended real and a change of format is the identity.  Both facts are the contraction sum of the operation,
  carried to the plain sum over k.
-/
import Idealize.ShloMosaic.PureOps.Ideal.Laws
import Idealize.ShloMosaic.Lib.ValueIdx
import proofs.«143811_j36636071034924_1_alg».proof.Proof.LibPlainDot

noncomputable section

namespace MatProd

open Idealize.ShloMosaic Idealize.ShloMosaic.ValueIdx

variable {R K C : Nat} {φ₁ φ₂ : FTy}

/-- The plain matrix product: entry (p, q) is the sum over k of A(p, k) * B(k, q). -/
def mm (A : (⟨2, ![R, K]⟩ : Shape).Idx → EReal) (B : (⟨2, ![K, C]⟩ : Shape).Idx → EReal) : (⟨2, ![R, C]⟩ : Shape).Idx → EReal :=
  fun i => ∑ k : Fin K, A (ix2 ⟨(i (0 : Fin 2)).val, (i (0 : Fin 2)).isLt⟩ k) * B (ix2 k ⟨(i (1 : Fin 2)).val, (i (1 : Fin 2)).isLt⟩)

/-- The product read at the index built from a row and a column. -/
theorem mm_ix2 (A : (⟨2, ![R, K]⟩ : Shape).Idx → EReal) (B : (⟨2, ![K, C]⟩ : Shape).Idx → EReal) (p : Fin R) (q : Fin C) :
    mm A B (ix2 p q) = ∑ k : Fin K, A (ix2 p k) * B (ix2 k q) := rfl

/-- The host's contraction of an [R, K] array with a [K, C] array along K is the plain product. -/
theorem dotGeneral_eq (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![R, K]⟩ φ₁) (B : FVec Ideal ⟨2, ![K, C]⟩ φ₂) :
    Host.dotGeneral (F := Ideal) d prec A B = mm A B := by
  funext i
  obtain ⟨p, q, rfl⟩ : ∃ (p : Fin R) (q : Fin C), i = ix2 p q := ⟨i 0, i 1, eq_ix2 i⟩
  rw [mm_ix2]
  show FloatOps.dotGeneral d prec .single A B (ix2 p q) = _
  rw [Ideal.dotGeneral_apply]
  exact PlainDot.sum_eq (M := EReal) d hlb hln hlc hrb hrn hrc A B p q

/-- The matrix unit's contraction of an [R, K] array with a [K, C] array along K, accumulated into zeros, is the plain
    product. -/
theorem matmul_zero_eq (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![R, K]⟩ φ₁) (B : FVec Ideal ⟨2, ![K, C]⟩ φ₂) :
    FloatOps.matmul (F := Ideal) d prec A B (constant (F := Ideal) ⟨2, ![R, C]⟩ .f32 0x00000000#32) = mm A B := by
  funext i
  obtain ⟨p, q, rfl⟩ : ∃ (p : Fin R) (q : Fin C), i = ix2 p q := ⟨i 0, i 1, eq_ix2 i⟩
  rw [mm_ix2, Ideal.matmul_constant_zero_apply]
  exact PlainDot.sum_eq (M := EReal) d hlb hln hlc hrb hrn hrc A B p q

/-- The plain product with a [1, C] row added to every row: entry (p, q) is the product's entry plus b(0, q). -/
def mmBias (A : (⟨2, ![R, K]⟩ : Shape).Idx → EReal) (B : (⟨2, ![K, C]⟩ : Shape).Idx → EReal)
    (b : (⟨2, ![1, C]⟩ : Shape).Idx → EReal) : (⟨2, ![R, C]⟩ : Shape).Idx → EReal :=
  fun i => mm A B i + b (ix2 ⟨0, Nat.one_pos⟩ ⟨(i (1 : Fin 2)).val, (i (1 : Fin 2)).isLt⟩)

end MatProd

end
-- ==== Proof.Prod0.lean ====
/-
  The first pallas_call's result array.

  The call tiles the rows of its [50000, 128] left array into ten blocks of 5000 rows, keeps the whole
  [128, 256] right array resident, and at grid point t stores, into rows 5000 t .. 5000 t + 4999 of the
  [50000, 256] result, the matrix unit's product of the left block with the right array accumulated into zeros
  (the two roundings to bf16 on the way in are the identity on extended reals).  Entry (p, q) of that block
  product is the sum over k of left(5000 t + p, k) * right(k, q), which is entry (5000 t + p, q) of the product
  of the whole arrays: a row block of a product is the product of the row block.  The ten blocks cover all
  50000 rows, so after the call the result array is the plain product of the two arrays as the call found them.
  Stated for any contents `V` of the buffers at the call's entry.
-/
import proofs.«143811_j36636071034924_1_alg».proof.Proof.Gen.KernelIdeal.Frame
import proofs.«143811_j36636071034924_1_alg».proof.Proof.LibMatProd
import Idealize.ShloMosaic.Lib.Pipeline.Value

set_option maxRecDepth 16384

noncomputable section

namespace Cert.KernelIdeal.Prod0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left array as the call finds it. -/
abbrev lhsArr (c : Dev nD) : (⟨2, ![50000, 128]⟩ : Shape).Idx → EReal := V c main_arg0
/-- The right array as the call finds it. -/
abbrev rhsArr (c : Dev nD) : (⟨2, ![128, 256]⟩ : Shape).Idx → EReal := V c main_arg2

/-- What the body stores is the plain product of the two blocks it loaded. -/
theorem pay (x0 : Vec Ideal S5000x128 .f32) (x1 : Vec Ideal S128x256 .f32) :
    k0_pay1 (F := Ideal) x0 x1 = MatProd.mm (R := 5000) (K := 128) (C := 256) x0 x1 := by
  unfold k0_pay1
  exact MatProd.matmul_zero_eq dot_S5000x128_S128x256_S5000x256_1_0_0_1_n_n rfl rfl rfl rfl rfl rfl none _ _

/-- The printed index maps over the grid: the left and result windows sit on row block t, column block 0; the right
    window on block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole arrays. -/
theorem flushed (c : Dev nD) (t : Fin cfg0.N) :
    (dat0 V c).flushed 2 t = ((cfg0.win 2).blk t).view.read (Elt Ideal) (MatProd.mm (lhsArr V c) (rhsArr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  rw [pay]
  obtain ⟨e00, e01, e10, e11, e20, e21⟩ := idx_facts t
  funext j
  show MatProd.mm (R := 5000) (K := 128) (C := 256) (iblk0 V c 0 t) (iblk0 V c 1 t) j
    = MatProd.mm (lhsArr V c) (rhsArr V c) (((cfg0.win 2).blk t).view.emb j)
  unfold MatProd.mm
  refine Finset.sum_congr rfl fun k _ => ?_
  refine congrArg₂ (· * ·) ?_ ?_
  · refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 256 + 1 * (j 1).val = win0_2.index t (1 : Fin 2) * 256 + 1 * (j 1).val
      omega

/-- An index of the result array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v7).slice (win0_2.rect t)).set ↔ _
  rw [View.set_slice_whole, Rect.mem_set_unit]
  exact Iff.rfl

/-- Row r of the result lies in the block of point r / 5000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 := ⟨⟨(i 0).val / 5000, by show _ < grid0.N; rw [N_0]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- After the call the result array is the plain product of the two arrays as the call found them. -/
theorem final (c : Dev nD) : (dat0 V c).arrAt 2 cfg0.N = MatProd.mm (lhsArr V c) (rhsArr V c) :=
  (dat0 V c).arrAt_eq_of_cover 2 _ (fun t _ => flushed V c t) cover

end Cert.KernelIdeal.Prod0

end
-- ==== Proof.Walk0.lean ====
/-
  The kernel program's buffers read back, stage by stage, as the reference's stages: from the launch to the first
  pallas_call's exit.

  @main first builds the two edge lists with their self loops appended (source and destination: a row of the edge array
  joined to 0 .. 49999), exactly as the reference does; those two buffers are the reference's stages of the same
  operations of the same argument.  The first pallas_call then leaves in its result buffer the plain product of the
  node features with the first weight matrix, which is what the reference's first contraction computes.  No host
  operation and no call writes an argument, and the call writes only its result, so every other buffer a later stage
  reads is carried across unchanged.
-/
import proofs.«143811_j36636071034924_1_alg».proof.Proof.Gen.KernelIdeal.Frame
import proofs.«143811_j36636071034924_1_alg».proof.Proof.Prod0
import proofs.«143811_j36636071034924_1_alg».proof.Proof.RefReadP
import Idealize.ShloMosaic.Lib.StableHlo.Run

set_option maxRecDepth 16384

noncomputable section

namespace Cert.KernelIdeal.Walk

open Cert.KernelIdeal Cert.KernelIdeal.Gen
open Cert.ReferenceIdeal.ReadP
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-! ## The arguments as launched, at the reference's types -/

abbrev x0 (c : Dev nD) : (⟨Cert.ReferenceIdeal.S50000x128, .f32⟩ : BufTy).Contents (Elt Ideal) := m ((c : Thread nD τ).loc main_arg0)
abbrev x1 (c : Dev nD) : (⟨Cert.ReferenceIdeal.S2x640000, .i32⟩ : BufTy).Contents (Elt Ideal) := m ((c : Thread nD τ).loc main_arg1)
abbrev x2 (c : Dev nD) : (⟨Cert.ReferenceIdeal.S128x256, .f32⟩ : BufTy).Contents (Elt Ideal) := m ((c : Thread nD τ).loc main_arg2)
abbrev x3 (c : Dev nD) : (⟨Cert.ReferenceIdeal.S256, .f32⟩ : BufTy).Contents (Elt Ideal) := m ((c : Thread nD τ).loc main_arg3)
abbrev x4 (c : Dev nD) : (⟨Cert.ReferenceIdeal.S256x128, .f32⟩ : BufTy).Contents (Elt Ideal) := m ((c : Thread nD τ).loc main_arg4)
abbrev x5 (c : Dev nD) : (⟨Cert.ReferenceIdeal.S128, .f32⟩ : BufTy).Contents (Elt Ideal) := m ((c : Thread nD τ).loc main_arg5)
abbrev x6 (c : Dev nD) : (⟨Cert.ReferenceIdeal.S128x40, .f32⟩ : BufTy).Contents (Elt Ideal) := m ((c : Thread nD τ).loc main_arg6)
abbrev x7 (c : Dev nD) : (⟨Cert.ReferenceIdeal.S40, .f32⟩ : BufTy).Contents (Elt Ideal) := m ((c : Thread nD τ).loc main_arg7)

/-! ## After the first host stretch (the first call's entry) -/

theorem W1_v3 (c : Dev nD) : W1 m ρ c (Proc.devRef .tc main_v3) = val_main_v3 (x1 m c) := by
  show StableHlo.after hostOps0 (W0 m ρ c) (Proc.devRef .tc main_v3) = _
  after_results
  rfl
theorem W1_v6 (c : Dev nD) : W1 m ρ c (Proc.devRef .tc main_v6) = val_main_v6 (x1 m c) := by
  show StableHlo.after hostOps0 (W0 m ρ c) (Proc.devRef .tc main_v6) = _
  after_results
  rfl
theorem W1_arg0 (c : Dev nD) : W1 m ρ c (Proc.devRef .tc main_arg0) = x0 m c := by
  show StableHlo.after hostOps0 (W0 m ρ c) (Proc.devRef .tc main_arg0) = _
  after_results
theorem W1_arg2 (c : Dev nD) : W1 m ρ c (Proc.devRef .tc main_arg2) = x2 m c := by
  show StableHlo.after hostOps0 (W0 m ρ c) (Proc.devRef .tc main_arg2) = _
  after_results
theorem W1_arg3 (c : Dev nD) : W1 m ρ c (Proc.devRef .tc main_arg3) = x3 m c := by
  show StableHlo.after hostOps0 (W0 m ρ c) (Proc.devRef .tc main_arg3) = _
  after_results
theorem W1_arg4 (c : Dev nD) : W1 m ρ c (Proc.devRef .tc main_arg4) = x4 m c := by
  show StableHlo.after hostOps0 (W0 m ρ c) (Proc.devRef .tc main_arg4) = _
  after_results
theorem W1_arg5 (c : Dev nD) : W1 m ρ c (Proc.devRef .tc main_arg5) = x5 m c := by
  show StableHlo.after hostOps0 (W0 m ρ c) (Proc.devRef .tc main_arg5) = _
  after_results
theorem W1_arg6 (c : Dev nD) : W1 m ρ c (Proc.devRef .tc main_arg6) = x6 m c := by
  show StableHlo.after hostOps0 (W0 m ρ c) (Proc.devRef .tc main_arg6) = _
  after_results
theorem W1_arg7 (c : Dev nD) : W1 m ρ c (Proc.devRef .tc main_arg7) = x7 m c := by
  show StableHlo.after hostOps0 (W0 m ρ c) (Proc.devRef .tc main_arg7) = _
  after_results

/-! ## After the first call -/

/-- The first call's result is the reference's first contraction of the same two arguments. -/
theorem W2_v7 (c : Dev nD) : W2 m ρ c (Proc.devRef .tc main_v7) = val_main_v30 (x0 m c) (x2 m c) := by
  refine (W2_arr m ρ c 2).trans ?_
  rw [Prod0.final]
  rw [show Prod0.lhsArr (V1 m ρ) c = x0 m c from W1_arg0 m ρ c, show Prod0.rhsArr (V1 m ρ) c = x2 m c from W1_arg2 m ρ c]
  unfold val_main_v30
  exact (MatProd.dotGeneral_eq _ rfl rfl rfl rfl rfl rfl none _ _).symm

theorem W2_v3 (c : Dev nD) : W2 m ρ c (Proc.devRef .tc main_v3) = val_main_v3 (x1 m c) :=
  (W2_of_ne m ρ c main_v3 (by decide)).trans (W1_v3 m ρ c)
theorem W2_v6 (c : Dev nD) : W2 m ρ c (Proc.devRef .tc main_v6) = val_main_v6 (x1 m c) :=
  (W2_of_ne m ρ c main_v6 (by decide)).trans (W1_v6 m ρ c)
theorem W2_arg3 (c : Dev nD) : W2 m ρ c (Proc.devRef .tc main_arg3) = x3 m c :=
  (W2_of_ne m ρ c main_arg3 (by decide)).trans (W1_arg3 m ρ c)
theorem W2_arg4 (c : Dev nD) : W2 m ρ c (Proc.devRef .tc main_arg4) = x4 m c :=
  (W2_of_ne m ρ c main_arg4 (by decide)).trans (W1_arg4 m ρ c)
theorem W2_arg5 (c : Dev nD) : W2 m ρ c (Proc.devRef .tc main_arg5) = x5 m c :=
  (W2_of_ne m ρ c main_arg5 (by decide)).trans (W1_arg5 m ρ c)
theorem W2_arg6 (c : Dev nD) : W2 m ρ c (Proc.devRef .tc main_arg6) = x6 m c :=
  (W2_of_ne m ρ c main_arg6 (by decide)).trans (W1_arg6 m ρ c)
theorem W2_arg7 (c : Dev nD) : W2 m ρ c (Proc.devRef .tc main_arg7) = x7 m c :=
  (W2_of_ne m ρ c main_arg7 (by decide)).trans (W1_arg7 m ρ c)

end Cert.KernelIdeal.Walk

end
-- ==== Proof.Walk1.lean ====
/-
  The kernel program's buffers at the second pallas_call's entry.

  Between the first two calls @main runs one graph-convolution layer on the first call's result H: the degree of
  every node (a scatter-add of ones over the destination list), its inverse square root where the degree is
  positive and zero elsewhere, the edge weight as the product of the two gathered end-point values, H's rows
  gathered by source and scaled by the edge weight, scatter-added by destination, plus the bias row, and the maximum
  with zero.  The reference applies the same operations, in the same order, to its own first contraction; with the
  call's result equal to that contraction and the edge lists equal, the two activations are the same term.
-/
import proofs.«143811_j36636071034924_1_alg».proof.Proof.Walk0

set_option maxRecDepth 65536

noncomputable section

namespace Cert.KernelIdeal.Walk

open Cert.KernelIdeal Cert.KernelIdeal.Gen
open Cert.ReferenceIdeal.ReadP
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-- One layer, at any float family and from any buffer contents: if the first call's result buffer holds the
    reference's first contraction of some arrays, the two edge-list buffers the reference's edge lists and the bias
    buffer some vector, then after the four host stretches the activation buffer holds the reference's first-layer
    activations of those arrays.  Both sides are the same operations applied to the same four values. -/
theorem layer1 {F : FTy → Type} [FloatOps F] (W : Valuation τ sig (Elt F))
    (y0 : (⟨Cert.ReferenceIdeal.S50000x128, .f32⟩ : BufTy).Contents (Elt F))
    (y1 : (⟨Cert.ReferenceIdeal.S2x640000, .i32⟩ : BufTy).Contents (Elt F))
    (y2 : (⟨Cert.ReferenceIdeal.S128x256, .f32⟩ : BufTy).Contents (Elt F))
    (y3 : (⟨Cert.ReferenceIdeal.S256, .f32⟩ : BufTy).Contents (Elt F))
    (h7 : W (Proc.devRef .tc main_v7) = val_main_v30 (F := F) y0 y2)
    (h3 : W (Proc.devRef .tc main_v3) = val_main_v3 (F := F) y1)
    (h6 : W (Proc.devRef .tc main_v6) = val_main_v6 (F := F) y1)
    (hb : W (Proc.devRef .tc main_arg3) = y3) :
    StableHlo.after hostOps1_3 (StableHlo.after hostOps1_2 (StableHlo.after hostOps1_1 (StableHlo.after hostOps1 W))) (Proc.devRef .tc main_v47)
      = val_main_v47 (F := F) y0 y1 y2 y3 := by
  after_results_simp
  rw [h7, h3, h6, hb]
  rfl

/-- The first layer's activations are the reference's. -/
theorem W6_v47 (c : Dev nD) : W6 m ρ c (Proc.devRef .tc main_v47) = val_main_v47 (x0 m c) (x1 m c) (x2 m c) (x3 m c) :=
  layer1 (F := Ideal) (W2 m ρ c) (x0 m c) (x1 m c) (x2 m c) (x3 m c) (W2_v7 m ρ c) (W2_v3 m ρ c) (W2_v6 m ρ c) (W2_arg3 m ρ c)

theorem W6_v3 (c : Dev nD) : W6 m ρ c (Proc.devRef .tc main_v3) = val_main_v3 (x1 m c) := by
  show StableHlo.after hostOps1_3 (StableHlo.after hostOps1_2 (StableHlo.after hostOps1_1 (StableHlo.after hostOps1 (W2 m ρ c)))) (Proc.devRef .tc main_v3) = _
  after_results_simp
  exact W2_v3 m ρ c

theorem W6_v6 (c : Dev nD) : W6 m ρ c (Proc.devRef .tc main_v6) = val_main_v6 (x1 m c) := by
  show StableHlo.after hostOps1_3 (StableHlo.after hostOps1_2 (StableHlo.after hostOps1_1 (StableHlo.after hostOps1 (W2 m ρ c)))) (Proc.devRef .tc main_v6) = _
  after_results_simp
  exact W2_v6 m ρ c

theorem W6_arg4 (c : Dev nD) : W6 m ρ c (Proc.devRef .tc main_arg4) = x4 m c := by
  show StableHlo.after hostOps1_3 (StableHlo.after hostOps1_2 (StableHlo.after hostOps1_1 (StableHlo.after hostOps1 (W2 m ρ c)))) (Proc.devRef .tc main_arg4) = _
  after_results_simp
  exact W2_arg4 m ρ c

theorem W6_arg5 (c : Dev nD) : W6 m ρ c (Proc.devRef .tc main_arg5) = x5 m c := by
  show StableHlo.after hostOps1_3 (StableHlo.after hostOps1_2 (StableHlo.after hostOps1_1 (StableHlo.after hostOps1 (W2 m ρ c)))) (Proc.devRef .tc main_arg5) = _
  after_results_simp
  exact W2_arg5 m ρ c

theorem W6_arg6 (c : Dev nD) : W6 m ρ c (Proc.devRef .tc main_arg6) = x6 m c := by
  show StableHlo.after hostOps1_3 (StableHlo.after hostOps1_2 (StableHlo.after hostOps1_1 (StableHlo.after hostOps1 (W2 m ρ c)))) (Proc.devRef .tc main_arg6) = _
  after_results_simp
  exact W2_arg6 m ρ c

theorem W6_arg7 (c : Dev nD) : W6 m ρ c (Proc.devRef .tc main_arg7) = x7 m c := by
  show StableHlo.after hostOps1_3 (StableHlo.after hostOps1_2 (StableHlo.after hostOps1_1 (StableHlo.after hostOps1 (W2 m ρ c)))) (Proc.devRef .tc main_arg7) = _
  after_results_simp
  exact W2_arg7 m ρ c

end Cert.KernelIdeal.Walk

end
-- ==== Proof.Prod1.lean ====
/-
  The second pallas_call's result array.

  The call tiles the rows of its [50000, 256] left array (the first layer's activations) into ten blocks of 5000
  rows, keeps the whole [256, 128] right array resident, and at grid point t stores, into rows 5000 t .. 5000 t + 4999
  of the [50000, 128] result, the matrix unit's product of the left block with the right array accumulated into
  zeros (the shape cast of the block to its own shape and the two roundings to bf16 are the identity on extended
  reals).  A row block of a product is the product of the row block, and the ten blocks cover all 50000 rows, so
  after the call the result array is the plain product of the two arrays as the call found them.
  Stated for any contents `V` of the buffers at the call's entry.
-/
import proofs.«143811_j36636071034924_1_alg».proof.Proof.Gen.KernelIdeal.Frame
import proofs.«143811_j36636071034924_1_alg».proof.Proof.LibMatProd
import Idealize.ShloMosaic.Lib.Pipeline.Value

set_option maxRecDepth 16384

noncomputable section

namespace Cert.KernelIdeal.Prod1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left array as the call finds it. -/
abbrev lhsArr (c : Dev nD) : (⟨2, ![50000, 256]⟩ : Shape).Idx → EReal := V c main_v47
/-- The right array as the call finds it. -/
abbrev rhsArr (c : Dev nD) : (⟨2, ![256, 128]⟩ : Shape).Idx → EReal := V c main_arg4

/-- What the body stores is the plain product of the two blocks it loaded. -/
theorem pay (x0 : Vec Ideal S5000x256 .f32) (x1 : Vec Ideal S256x128 .f32) :
    k1_pay1 (F := Ideal) x0 x1 = MatProd.mm (R := 5000) (K := 256) (C := 128) x0 x1 := by
  unfold k1_pay1
  dsimp only
  rw [shapeCast_self]
  exact MatProd.matmul_zero_eq dot_S5000x256_S256x128_S5000x128_1_0_0_1_n_n rfl rfl rfl rfl rfl rfl none _ _

/-- The printed index maps over the grid: the left and result windows sit on row block t, column block 0; the right
    window on block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the whole arrays. -/
theorem flushed (c : Dev nD) (t : Fin cfg1.N) :
    (dat1 V c).flushed 2 t = ((cfg1.win 2).blk t).view.read (Elt Ideal) (MatProd.mm (lhsArr V c) (rhsArr V c)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  rw [pay]
  obtain ⟨e00, e01, e10, e11, e20, e21⟩ := idx_facts t
  funext j
  show MatProd.mm (R := 5000) (K := 256) (C := 128) (iblk1 V c 0 t) (iblk1 V c 1 t) j
    = MatProd.mm (lhsArr V c) (rhsArr V c) (((cfg1.win 2).blk t).view.emb j)
  unfold MatProd.mm
  refine Finset.sum_congr rfl fun k _ => ?_
  refine congrArg₂ (· * ·) ?_ ?_
  · refine congrArg (V c main_v47) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 256 + 1 * k.val = k.val
      omega
  · refine congrArg (V c main_arg4) (funext fun a => Fin.ext ?_)
    match a with
    | ⟨0, _⟩ =>
      show win1_1.index t (0 : Fin 2) * 256 + 1 * k.val = k.val
      omega
    | ⟨1, _⟩ =>
      show win1_1.index t (1 : Fin 2) * 128 + 1 * (j 1).val = win1_2.index t (1 : Fin 2) * 128 + 1 * (j 1).val
      omega

/-- An index of the result array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Row r of the result lies in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by show _ < grid1.N; rw [N_1]; omega⟩, rfl⟩
  obtain ⟨-, -, -, -, e20, e21⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After the call the result array is the plain product of the two arrays as the call found them. -/
theorem final (c : Dev nD) : (dat1 V c).arrAt 2 cfg1.N = MatProd.mm (lhsArr V c) (rhsArr V c) :=
  (dat1 V c).arrAt_eq_of_cover 2 _ (fun t _ => flushed V c t) cover

end Cert.KernelIdeal.Prod1

end
-- ==== Proof.Walk2.lean ====
/-
  The kernel program's buffers after the second pallas_call.

  The call leaves in its result buffer the plain product of the first layer's activations with the second weight
  matrix; with the activations equal to the reference's and the weights an argument, that is the reference's second
  contraction.  The call writes nothing else, so the edge lists and the remaining arguments are carried across.
-/
import proofs.«143811_j36636071034924_1_alg».proof.Proof.Walk1
import proofs.«143811_j36636071034924_1_alg».proof.Proof.Prod1

set_option maxRecDepth 65536

noncomputable section

namespace Cert.KernelIdeal.Walk

open Cert.KernelIdeal Cert.KernelIdeal.Gen
open Cert.ReferenceIdeal.ReadP
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg)

/-- The second call's result is the reference's second contraction. -/
theorem W7_v48 (c : Dev nD) : W7 m ρ c (Proc.devRef .tc main_v48) = val_main_v71 (x0 m c) (x1 m c) (x2 m c) (x3 m c) (x4 m c) := by
  refine (W7_arr m ρ c 2).trans ?_
  rw [Prod1.final]
  rw [show Prod1.lhsArr (V6 m ρ) c = val_main_v47 (x0 m c) (x1 m c) (x2 m c) (x3 m c) from W6_v47 m ρ c,
    show Prod1.rhsArr (V6 m ρ) c = x4 m c from W6_arg4 m ρ c]
  unfold val_main_v71
  exact (MatProd.dotGeneral_eq _ rfl rfl rfl rfl rfl rfl none _ _).symm

theorem W7_v3 (c : Dev nD) : W7 m ρ c (Proc.devRef .tc main_v3) = val_main_v3 (x1 m c) :=
  (W7_of_ne m ρ c main_v3 (by decide)).trans (W6_v3 m ρ c)

theorem W7_v6 (c : Dev nD) : W7 m ρ c (Proc.devRef .tc main_v6) = val_main_v6 (x1 m c) :=
  (W7_of_ne m ρ c main_v6 (by decide)).trans (W6_v6 m ρ c)

theorem W7_arg5 (c : Dev nD) : W7 m ρ c (Proc.devRef .tc main_arg5) = x5 m c :=
  (W7_of_ne m ρ c main_arg5 (by decide)).trans (W6_arg5 m ρ c)

theorem W7_arg6 (c : Dev nD) : W7 m ρ c (Proc.devRef .tc main_arg6) = x6 m c :=
  (W7_of_ne m ρ c main_arg6 (by decide)).trans (W6_arg6 m ρ c)

theorem W7_arg7 (c : Dev nD) : W7 m ρ c (Proc.devRef .tc main_arg7) = x7 m c :=
  (W7_of_ne m ρ c main_arg7 (by decide)).trans (W6_arg7 m ρ c)

end Cert.KernelIdeal.Walk

end
-- ==== Proof.Walk3.lean ====
/-
  The kernel program's buffers at the third pallas_call's entry.

  Between the last two calls @main runs the second graph-convolution layer on the second call's result, the same
  operations as the first layer at the narrower width and with the second bias, and reshapes the classifier's bias
  vector into a one-row matrix.  The reference applies the same layer to its own second contraction, so the two
  activations are the same term; the one-row bias is a reshape of the argument, and the classifier's weights are carried.
-/
import proofs.«143811_j36636071034924_1_alg».proof.Proof.Walk2

set_option maxRecDepth 65536

noncomputable section

namespace Cert.KernelIdeal.Walk

open Cert.KernelIdeal Cert.KernelIdeal.Gen
open Cert.ReferenceIdeal.ReadP
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg)

/-- The second layer, at any float family and from any buffer contents: if the second call's result buffer holds the
    reference's second contraction of some arrays, the two edge-list buffers the reference's edge lists and the second
    bias buffer some vector, then after the five host stretches the activation buffer holds the reference's
    second-layer activations of those arrays. -/
theorem layer2 {F : FTy → Type} [FloatOps F] (W : Valuation τ sig (Elt F))
    (y0 : (⟨Cert.ReferenceIdeal.S50000x128, .f32⟩ : BufTy).Contents (Elt F))
    (y1 : (⟨Cert.ReferenceIdeal.S2x640000, .i32⟩ : BufTy).Contents (Elt F))
    (y2 : (⟨Cert.ReferenceIdeal.S128x256, .f32⟩ : BufTy).Contents (Elt F))
    (y3 : (⟨Cert.ReferenceIdeal.S256, .f32⟩ : BufTy).Contents (Elt F))
    (y4 : (⟨Cert.ReferenceIdeal.S256x128, .f32⟩ : BufTy).Contents (Elt F))
    (y5 : (⟨Cert.ReferenceIdeal.S128, .f32⟩ : BufTy).Contents (Elt F))
    (h48 : W (Proc.devRef .tc main_v48) = val_main_v71 (F := F) y0 y1 y2 y3 y4)
    (h3 : W (Proc.devRef .tc main_v3) = val_main_v3 (F := F) y1)
    (h6 : W (Proc.devRef .tc main_v6) = val_main_v6 (F := F) y1)
    (hb : W (Proc.devRef .tc main_arg5) = y5) :
    StableHlo.after hostOps2_4 (StableHlo.after hostOps2_3 (StableHlo.after hostOps2_2 (StableHlo.after hostOps2_1 (StableHlo.after hostOps2 W)))) (Proc.devRef .tc main_v88)
      = val_main_v88 (F := F) y0 y1 y2 y3 y4 y5 := by
  after_results_simp
  rw [h48, h3, h6, hb]
  rfl

/-- The second layer's activations are the reference's. -/
theorem W12_v88 (c : Dev nD) : W12 m ρ c (Proc.devRef .tc main_v88) = val_main_v88 (x0 m c) (x1 m c) (x2 m c) (x3 m c) (x4 m c) (x5 m c) :=
  layer2 (F := Ideal) (W7 m ρ c) (x0 m c) (x1 m c) (x2 m c) (x3 m c) (x4 m c) (x5 m c) (W7_v48 m ρ c) (W7_v3 m ρ c) (W7_v6 m ρ c) (W7_arg5 m ρ c)

/-- The one-row bias the third call reads is the bias vector reshaped. -/
theorem W12_v89 (c : Dev nD) : W12 m ρ c (Proc.devRef .tc main_v89) = shapeCast S1x40 (x7 m c) shapeCasts_S40_S1x40 := by
  show StableHlo.after hostOps2_4 (StableHlo.after hostOps2_3 (StableHlo.after hostOps2_2 (StableHlo.after hostOps2_1 (StableHlo.after hostOps2 (W7 m ρ c))))) (Proc.devRef .tc main_v89) = _
  after_results_simp
  rw [W7_arg7 m ρ c]
  rfl

theorem W12_arg6 (c : Dev nD) : W12 m ρ c (Proc.devRef .tc main_arg6) = x6 m c := by
  show StableHlo.after hostOps2_4 (StableHlo.after hostOps2_3 (StableHlo.after hostOps2_2 (StableHlo.after hostOps2_1 (StableHlo.after hostOps2 (W7 m ρ c))))) (Proc.devRef .tc main_arg6) = _
  after_results_simp
  exact W7_arg6 m ρ c

end Cert.KernelIdeal.Walk

end
-- ==== Proof.Prod2.lean ====
/-
  The third pallas_call's result array.

  The call tiles the rows of its [50000, 128] left array (the second layer's activations) into ten blocks of 5000
  rows, keeps the whole [128, 40] right array and the [1, 40] bias row resident, and at grid point t stores, into rows
  5000 t .. 5000 t + 4999 of the [50000, 40] result, the matrix unit's product of the left block with the right array
  accumulated into zeros, plus the bias row broadcast down the 5000 rows (the shape casts to the same shape and the
  two roundings to bf16 are the identity on extended reals).  Entry (p, q) of what point t stores is the sum over k of
  left(5000 t + p, k) * right(k, q), plus bias(0, q): entry (5000 t + p, q) of the product of the whole arrays with the
  bias row added to every row.  The ten blocks cover all 50000 rows, so after the call the result array is that function
  of the three arrays as the call found them.  Stated for any contents `V` of the buffers at the call's entry.
-/
import proofs.«143811_j36636071034924_1_alg».proof.Proof.Gen.KernelIdeal.Frame
import proofs.«143811_j36636071034924_1_alg».proof.Proof.LibMatProd
import Idealize.ShloMosaic.Lib.Pipeline.Value

set_option maxRecDepth 16384

noncomputable section

namespace Cert.KernelIdeal.Prod2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left array as the call finds it. -/
abbrev lhsArr (c : Dev nD) : (⟨2, ![50000, 128]⟩ : Shape).Idx → EReal := V c main_v88
/-- The right array as the call finds it. -/
abbrev rhsArr (c : Dev nD) : (⟨2, ![128, 40]⟩ : Shape).Idx → EReal := V c main_arg6
/-- The bias row as the call finds it. -/
abbrev biasArr (c : Dev nD) : (⟨2, ![1, 40]⟩ : Shape).Idx → EReal := V c main_v89

/-- The bias row broadcast down the rows, read at an index: the row's entry in that column. -/
theorem bias_at (x2 : Vec Ideal S1x40 .f32) (i : S5000x40.Idx) :
    broadcastTo S5000x40 x2 broadcasts_S1x40_S5000x40 i = x2 (ix2 ⟨0, Nat.one_pos⟩ ⟨(i 1).val, (i 1).isLt⟩) :=
  broadcastTo_apply x2 broadcasts_S1x40_S5000x40 i (ix2 ⟨0, Nat.one_pos⟩ ⟨(i 1).val, (i 1).isLt⟩) (fun a => match a with
    | ⟨0, _⟩ => by show 0 = if (1 : Nat) = 1 then 0 else _; rw [if_pos rfl]
    | ⟨1, _⟩ => by show (i 1).val = if (40 : Nat) = 1 then 0 else (i 1).val; rw [if_neg (by decide)])

/-- What the body stores is the plain product of the two blocks it loaded, plus the bias row on every row. -/
theorem pay (x0 : Vec Ideal S5000x128 .f32) (x1 : Vec Ideal S128x40 .f32) (x2 : Vec Ideal S1x40 .f32) :
    k2_pay1 (F := Ideal) x0 x1 x2 = MatProd.mmBias (R := 5000) (K := 128) (C := 40) x0 x1 x2 := by
  unfold k2_pay1
  dsimp only
  rw [shapeCast_self, shapeCast_self]
  funext i
  show FloatOps.matmul (F := Ideal) dot_S5000x128_S128x40_S5000x40_1_0_0_1_n_n none x0 x1 (constant (F := Ideal) S5000x40 .f32 0x00000000#32) i
      + broadcastTo S5000x40 x2 broadcasts_S1x40_S5000x40 i = _
  rw [bias_at, MatProd.matmul_zero_eq dot_S5000x128_S128x40_S5000x40_1_0_0_1_n_n rfl rfl rfl rfl rfl rfl none x0 x1]
  rfl

/-- The printed index maps over the grid: the left and result windows sit on row block t, column block 0; the right
    window and the bias row on block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the product of the whole arrays with the bias row added. -/
theorem flushed (c : Dev nD) (t : Fin cfg2.N) :
    (dat2 V c).flushed 3 t = ((cfg2.win 3).blk t).view.read (Elt Ideal) (MatProd.mmBias (lhsArr V c) (rhsArr V c) (biasArr V c)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x40) hz, View.ld_unit_zero (S := S1x40) hz]
  rw [pay]
  obtain ⟨e00, e01, e10, e11, e20, e21, e30, e31⟩ := idx_facts t
  funext j
  show MatProd.mmBias (R := 5000) (K := 128) (C := 40) (iblk2 V c 0 t) (iblk2 V c 1 t) (iblk2 V c 2 t) j
    = MatProd.mmBias (lhsArr V c) (rhsArr V c) (biasArr V c) (((cfg2.win 3).blk t).view.emb j)
  unfold MatProd.mmBias MatProd.mm
  refine congrArg₂ (· + ·) (Finset.sum_congr rfl fun k _ => congrArg₂ (· * ·) ?_ ?_) ?_
  · refine congrArg (V c main_v88) (funext fun a => Fin.ext ?_)
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 128 + 1 * k.val = k.val
      omega
  · refine congrArg (V c main_arg6) (funext fun a => Fin.ext ?_)
    match a with
    | ⟨0, _⟩ =>
      show win2_1.index t (0 : Fin 2) * 128 + 1 * k.val = k.val
      omega
    | ⟨1, _⟩ =>
      show win2_1.index t (1 : Fin 2) * 40 + 1 * (j 1).val = win2_3.index t (1 : Fin 2) * 40 + 1 * (j 1).val
      omega
  · refine congrArg (V c main_v89) (funext fun a => Fin.ext ?_)
    match a with
    | ⟨0, _⟩ =>
      show win2_2.index t (0 : Fin 2) * 1 + 1 * 0 = 0
      omega
    | ⟨1, _⟩ =>
      show win2_2.index t (1 : Fin 2) * 40 + 1 * (j 1).val = win2_3.index t (1 : Fin 2) * 40 + 1 * (j 1).val
      omega

/-- An index of the result array is in point t's block iff each coordinate is in the block's range on its axis. -/
theorem mem_blk (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v90).slice (win2_3.rect t)).set ↔ _
  rw [View.set_slice_whole, Rect.mem_set_unit]
  exact Iff.rfl

/-- Row r of the result lies in the block of point r / 5000. -/
theorem cover (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ : ∃ t : Fin cfg2.N, t.val = (i 0).val / 5000 := ⟨⟨(i 0).val / 5000, by show _ < grid2.N; rw [N_2]; omega⟩, rfl⟩
  obtain ⟨-, -, -, -, -, -, e30, e31⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 40 ≤ (i 1).val ∧ (i 1).val < win2_3.index t (1 : Fin 2) * 40 + 40
    omega

/-- After the call the result array is the plain product of the two arrays, with the bias row added to every row, all
    as the call found them. -/
theorem final (c : Dev nD) : (dat2 V c).arrAt 3 cfg2.N = MatProd.mmBias (lhsArr V c) (rhsArr V c) (biasArr V c) :=
  (dat2 V c).arrAt_eq_of_cover 3 _ (fun t _ => flushed V c t) cover

end Cert.KernelIdeal.Prod2

end
-- ==== Proof.Walk4.lean ====
/-
  The kernel program's result buffer is the reference's result.

  The third call leaves in the result buffer the plain product of the second layer's activations with the
  classifier's weights, plus the one-row bias on every row.  Entry (p, q) is the sum over k of h(p, k) * w(k, q), plus
  the reshaped bias at (0, q), which is the bias vector's entry q.  The reference's result at (p, q) is its third
  contraction's entry, the same sum, plus the bias vector broadcast to one row and then down the rows, read at (p, q):
  the bias vector's entry q again.
-/
import proofs.«143811_j36636071034924_1_alg».proof.Proof.Walk3
import proofs.«143811_j36636071034924_1_alg».proof.Proof.Prod2
import Idealize.ShloMosaic.Lib.Pipeline.Value

set_option maxRecDepth 65536

noncomputable section

namespace Cert.KernelIdeal.Walk

open Cert.KernelIdeal Cert.KernelIdeal.Gen
open Cert.ReferenceIdeal.ReadP
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg)

/-- The reshaped bias row at (0, q) is the bias vector's entry q. -/
theorem bias_row (b : (⟨1, ![40]⟩ : Shape).Idx → EReal) (q : Fin 40) :
    shapeCast (⟨2, ![1, 40]⟩ : Shape) b shapeCasts_S40_S1x40 (ix2 ⟨0, Nat.one_pos⟩ q) = b (ix1 q) :=
  shapeCast_apply b shapeCasts_S40_S1x40 (ix2 ⟨0, Nat.one_pos⟩ q) (ix1 q) (by
    rw [Shape.rowMajor_val_two, Shape.rowMajor_val_one]; show q.val = 0 * 40 + q.val; omega)

/-- The kernel program's result buffer after the run is the reference's last stage of the same arguments. -/
theorem W13_v90 (c : Dev nD) : W13 m ρ c (Proc.devRef .tc main_v90)
    = val_main_v92 (x0 m c) (x1 m c) (x2 m c) (x3 m c) (x4 m c) (x5 m c) (x6 m c) (x7 m c) := by
  refine (W13_arr m ρ c 3).trans ?_
  rw [Prod2.final]
  rw [show Prod2.lhsArr (V12 m ρ) c = val_main_v88 (x0 m c) (x1 m c) (x2 m c) (x3 m c) (x4 m c) (x5 m c) from W12_v88 m ρ c,
    show Prod2.rhsArr (V12 m ρ) c = x6 m c from W12_arg6 m ρ c,
    show Prod2.biasArr (V12 m ρ) c = shapeCast S1x40 (x7 m c) shapeCasts_S40_S1x40 from W12_v89 m ρ c]
  funext i
  rw [val_main_v92_apply, val_main_v91_apply, val_main_v90_apply]
  unfold val_main_v89
  rw [MatProd.dotGeneral_eq _ rfl rfl rfl rfl rfl rfl none]
  unfold MatProd.mmBias
  rw [bias_row]
  refine congrArg (MatProd.mm _ _ i + ·) (congrArg (x7 m c) (funext fun a => ?_))
  match a with
  | ⟨0, _⟩ => rfl

end Cert.KernelIdeal.Walk

end
-- ==== Proof.lean ====
/-
  A two-layer graph convolution with a linear classifier on 50000 nodes, 640000 edges and one self loop per node:
  three tiled matrix products on the matrix unit against the same network written with three host contractions.

  Both programs build the same source and destination lists, and for each of the two layers compute the degrees, the
  symmetric edge weights 1/sqrt(deg(src)) * 1/sqrt(deg(dst)) (zero where a degree is zero), gather the rows of
  X W by source, scale them, scatter-add them by destination, add the bias and take the maximum with zero, by the same
  host operations in the same order.  They differ only in how X W is formed: the kernel program tiles the 50000 rows
  into ten blocks of 5000, rounds both operands to bf16 and multiplies each block with the whole weight matrix on the
  matrix unit into a zero accumulator, where the reference contracts the whole arrays at once.  On extended reals a
  rounding is the identity, the matrix unit's contraction into zeros and the host's contraction are the same sum over
  k of x(p, k) * w(k, q), and a row block of a product is the product of the row block; so each call's result array is
  the reference's contraction of the same operands, and everything downstream is the same term.  In the last call the
  bias is added inside the kernel, from the bias vector reshaped to one row and broadcast down the rows, where the
  reference broadcasts the vector twice and adds on the host: entry (p, q) receives the vector's entry q either way.
  No law used here needs finiteness (only that equal operands give equal sums), so the precondition is not opened.

  The frames of the two kernel programs are the generated ones; the reference's frame is its run with the result
  dropped; the ideal pass rewrote nothing, so its ledger's claim is `True`.
-/
import proofs.«143811_j36636071034924_1_alg».proof.Defs
import proofs.«143811_j36636071034924_1_alg».proof.Proof.Gen.Kernel
import proofs.«143811_j36636071034924_1_alg».proof.Proof.Gen.Kernel.Skeleton
import proofs.«143811_j36636071034924_1_alg».proof.Proof.Gen.Kernel.Launch
import proofs.«143811_j36636071034924_1_alg».proof.Proof.Gen.Kernel.Points
import proofs.«143811_j36636071034924_1_alg».proof.Proof.Gen.Kernel.Frame
import proofs.«143811_j36636071034924_1_alg».proof.Proof.Gen.KernelIdeal
import proofs.«143811_j36636071034924_1_alg».proof.Proof.Gen.KernelIdeal.Skeleton
import proofs.«143811_j36636071034924_1_alg».proof.Proof.Gen.KernelIdeal.Launch
import proofs.«143811_j36636071034924_1_alg».proof.Proof.Gen.KernelIdeal.Points
import proofs.«143811_j36636071034924_1_alg».proof.Proof.Gen.KernelIdeal.Frame
import proofs.«143811_j36636071034924_1_alg».proof.Proof.Gen.ReferenceIdeal
import proofs.«143811_j36636071034924_1_alg».proof.Proof.Gen.Pre_finite_inputs
import proofs.«143811_j36636071034924_1_alg».proof.Proof.KernelRun
import proofs.«143811_j36636071034924_1_alg».proof.Proof.RefRun
import proofs.«143811_j36636071034924_1_alg».proof.Proof.RefReadP
import proofs.«143811_j36636071034924_1_alg».proof.Proof.Walk4
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs run, and the kernel program's result array is the
    reference's: the last boundary's contents of the result buffer are the reference's last stage of the arguments. -/
theorem algebraic : Cert.algebraic_KernelIdeal_ReferenceIdeal := by
  intro m ρ m' ρ' _ hagree
  refine ⟨fun c => Cert.ReferenceIdeal.ValueP.res_main_v92 (F := Ideal) m' c, ?_,
    Cert.ReferenceIdeal.ValueP.run (F := Ideal) m' ρ'⟩
  refine (θ_run Cert.KernelIdeal.defs _ _).mono (fun r h c => ⟨(h c).1.trans ?_, (h c).2⟩)
    (Cert.KernelIdeal.GenRun.run (F := Ideal) m ρ)
  obtain ⟨h0, h1, h2, h3, h4, h5, h6, h7⟩ := hagree c
  show _ = Cert.ReferenceIdeal.ValueP.res_main_v92 (F := Ideal) m' c
  rw [Cert.KernelIdeal.Walk.W13_v90 m ρ c, Cert.ReferenceIdeal.ReadP.val_main_v92_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
